-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x48 : Shape := ⟨2, ![96, 48]⟩
abbrev S48 : Shape := ⟨1, ![48]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x48 : S_.BroadcastsInDim S96x48 (![] : Fin 0 → Fin S96x48.rank)
  reducesTo_S96x48_S_d0_1 : S96x48.ReducesTo [0, 1] S_
  bcast_S_S48 : S_.BroadcastsInDim S48 (![] : Fin 0 → Fin S48.rank)
  reducesTo_S48_S_d0 : S48.ReducesTo [0] S_

variable [Facts]

def fn_part2 {F : FTy → Type} [FloatOps F] (main_arg8 : FVec F S96x48 .f32) (main_arg9 : FVec F S96x48 .f32) (main_arg10 : FVec F S48 .f32) (main_v33 : IVec S_ 1) : IVec S_ 1 :=
  let main_v34 : FVec F S96x48 .f32 := Host.absf main_arg8
  let main_cst_12 : FVec F S_ .f32 := constant S_ .f32 0x7F800000#32
  let main_v35 : FVec F S96x48 .f32 := broadcastInDim S96x48 ![] bcast_S_S96x48 main_cst_12
  let main_v36 : IVec S96x48 1 := cmpf .olt main_v34 main_v35
  let main_c_13 : IVec S_ 1 := constantI S_ 1 1#1
  let main_v37 : IVec S_ 1 := (fun x v => Host.reduce IntOp.andi x v reducesTo_S96x48_S_d0_1 h_S_) main_v36 main_c_13
  let main_v38 : IVec S_ 1 := andi main_v33 main_v37
  let main_v39 : FVec F S96x48 .f32 := Host.absf main_arg9
  let main_cst_14 : FVec F S_ .f32 := constant S_ .f32 0x7F800000#32
  let main_v40 : FVec F S96x48 .f32 := broadcastInDim S96x48 ![] bcast_S_S96x48 main_cst_14
  let main_v41 : IVec S96x48 1 := cmpf .olt main_v39 main_v40
  let main_c_15 : IVec S_ 1 := constantI S_ 1 1#1
  let main_v42 : IVec S_ 1 := (fun x v => Host.reduce IntOp.andi x v reducesTo_S96x48_S_d0_1 h_S_) main_v41 main_c_15
  let main_v43 : IVec S_ 1 := andi main_v38 main_v42
  let main_v44 : FVec F S48 .f32 := Host.absf main_arg10
  let main_cst_16 : FVec F S_ .f32 := constant S_ .f32 0x7F800000#32
  let main_v45 : FVec F S48 .f32 := broadcastInDim S48 ![] bcast_S_S48 main_cst_16
  let main_v46 : IVec S48 1 := cmpf .olt main_v44 main_v45
  let main_c_17 : IVec S_ 1 := constantI S_ 1 1#1
  let main_v47 : IVec S_ 1 := (fun x v => Host.reduce IntOp.andi x v reducesTo_S48_S_d0 h_S_) main_v46 main_c_17
  let main_v48 : IVec S_ 1 := andi main_v43 main_v47
  main_v48

def fn_part1 {F : FTy → Type} [FloatOps F] (main_arg5 : FVec F S96x96 .f32) (main_arg6 : FVec F S96x96 .f32) (main_arg7 : FVec F S96 .f32) (main_arg8 : FVec F S96x48 .f32) (main_arg9 : FVec F S96x48 .f32) (main_arg10 : FVec F S48 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg8 main_arg9 main_arg10 main_v33

def fn {F : FTy → Type} [FloatOps F] (main_arg0 : FVec F S50000x96 .f32) (main_arg1 : IVec S2x800000 32) (main_arg2 : FVec F S96x96 .f32) (main_arg3 : FVec F S96x96 .f32) (main_arg4 : FVec F S96 .f32) (main_arg5 : FVec F S96x96 .f32) (main_arg6 : FVec F S96x96 .f32) (main_arg7 : FVec F S96 .f32) (main_arg8 : FVec F S96x48 .f32) (main_arg9 : FVec F S96x48 .f32) (main_arg10 : FVec F S48 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg3
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x48 : Shape := ⟨2, ![96, 48]⟩
abbrev S48 : Shape := ⟨1, ![48]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x96 : Shape := ⟨2, ![800000, 96]⟩
abbrev S5000x96 : Shape := ⟨2, ![5000, 96]⟩
abbrev S5000x1 : Shape := ⟨2, ![5000, 1]⟩
abbrev S1x96 : Shape := ⟨2, ![1, 96]⟩
abbrev S50000x48 : Shape := ⟨2, ![50000, 48]⟩
abbrev S5000x48 : Shape := ⟨2, ![5000, 48]⟩
abbrev S1x48 : Shape := ⟨2, ![1, 48]⟩

abbrev nBuf : Space → Nat
  | .hbm => 63
  | .vmem => 33
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96x96, .f32⟩
  | .hbm, ⟨7, _⟩ => ⟨S96, .f32⟩
  | .hbm, ⟨8, _⟩ => ⟨S96x48, .f32⟩
  | .hbm, ⟨9, _⟩ => ⟨S96x48, .f32⟩
  | .hbm, ⟨10, _⟩ => ⟨S48, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000x1, .f32⟩
  | .hbm, ⟨17, _⟩ => ⟨S_, .f32⟩
  | .hbm, ⟨18, _⟩ => ⟨S50000x1, .f32⟩
  | .hbm, ⟨19, _⟩ => ⟨S800000x1, .i32⟩
  | .hbm, ⟨20, _⟩ => ⟨S50000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x96, .f32⟩
  | .hbm, ⟨30, _⟩ => ⟨S_, .f32⟩
  | .hbm, ⟨31, _⟩ => ⟨S50000x96, .f32⟩
  | .hbm, ⟨32, _⟩ => ⟨S800000x1, .i32⟩
  | .hbm, ⟨33, _⟩ => ⟨S50000x96, .f32⟩
  | .hbm, ⟨34, _⟩ => ⟨S50000x96, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x96, .f32⟩
  | .hbm, ⟨44, _⟩ => ⟨S_, .f32⟩
  | .hbm, ⟨45, _⟩ => ⟨S50000x96, .f32⟩
  | .hbm, ⟨46, _⟩ => ⟨S800000x1, .i32⟩
  | .hbm, ⟨47, _⟩ => ⟨S50000x96, .f32⟩
  | .hbm, ⟨48, _⟩ => ⟨S50000x96, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x96, .f32⟩
  | .hbm, ⟨58, _⟩ => ⟨S_, .f32⟩
  | .hbm, ⟨59, _⟩ => ⟨S50000x96, .f32⟩
  | .hbm, ⟨60, _⟩ => ⟨S800000x1, .i32⟩
  | .hbm, ⟨61, _⟩ => ⟨S50000x96, .f32⟩
  | .hbm, ⟨62, _⟩ => ⟨S50000x48, .f32⟩
  | .local _ .vmem, ⟨0, _⟩ => ⟨S5000x96, .f32⟩
  | .local _ .vmem, ⟨1, _⟩ => ⟨S5000x96, .f32⟩
  | .local _ .vmem, ⟨2, _⟩ => ⟨S5000x1, .f32⟩
  | .local _ .vmem, ⟨3, _⟩ => ⟨S5000x1, .f32⟩
  | .local _ .vmem, ⟨4, _⟩ => ⟨S5000x96, .f32⟩
  | .local _ .vmem, ⟨5, _⟩ => ⟨S5000x96, .f32⟩
  | .local _ .vmem, ⟨6, _⟩ => ⟨S96x96, .f32⟩
  | .local _ .vmem, ⟨7, _⟩ => ⟨S96x96, .f32⟩
  | .local _ .vmem, ⟨8, _⟩ => ⟨S96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x1, .f32⟩
  | .local _ .vmem, ⟨14, _⟩ => ⟨S5000x1, .f32⟩
  | .local _ .vmem, ⟨15, _⟩ => ⟨S5000x96, .f32⟩
  | .local _ .vmem, ⟨16, _⟩ => ⟨S5000x96, .f32⟩
  | .local _ .vmem, ⟨17, _⟩ => ⟨S96x96, .f32⟩
  | .local _ .vmem, ⟨18, _⟩ => ⟨S96x96, .f32⟩
  | .local _ .vmem, ⟨19, _⟩ => ⟨S96, .f32⟩
  | .local _ .vmem, ⟨20, _⟩ => ⟨S5000x96, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x1, .f32⟩
  | .local _ .vmem, ⟨25, _⟩ => ⟨S5000x1, .f32⟩
  | .local _ .vmem, ⟨26, _⟩ => ⟨S5000x96, .f32⟩
  | .local _ .vmem, ⟨27, _⟩ => ⟨S5000x96, .f32⟩
  | .local _ .vmem, ⟨28, _⟩ => ⟨S96x48, .f32⟩
  | .local _ .vmem, ⟨29, _⟩ => ⟨S96x48, .f32⟩
  | .local _ .vmem, ⟨30, _⟩ => ⟨S48, .f32⟩
  | .local _ .vmem, ⟨31, _⟩ => ⟨S5000x48, .f32⟩
  | .local _ .vmem, ⟨32, _⟩ => ⟨S5000x48, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S96x48 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x48 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S48 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x48 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x96 : S_.BroadcastsInDim S50000x96 (![] : Fin 0 → Fin S50000x96.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  broadcasts_S5000x1_S5000x96 : S5000x1.Broadcasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  inb_S96x48_S96x48_0_0 : ∀ a, (![0, 0] : Fin 2 → Nat) a + S96x48.size a ≤ S96x48.size a
  h_S96x48 : 0 < S96x48.numel
  inb_S48_S48_0 : ∀ a, (![0] : Fin 1 → Nat) a + S48.size a ≤ S48.size a
  h_S48 : 0 < S48.numel
  shapeCasts_S48_S1x48 : S48.ShapeCasts S1x48
  broadcasts_S1x48_S5000x48 : S1x48.Broadcasts S5000x48
  inb_S5000x48_S5000x48_0_0 : ∀ a, (![0, 0] : Fin 2 → Nat) a + S5000x48.size a ≤ S5000x48.size a
  h_S5000x48 : 0 < S5000x48.numel
  scatter_S50000x1_S800000x1_S800000x1_1_0_0_1_wf : ScatterDims.WF S50000x1 S800000x1 S800000x1 [1] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x48_S5000x48_1_0_0_1_n_n_wf : DotDims.WF S5000x96 S96x48 S5000x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96.size a ≤ S96.size a
  hwx0_5 : ∀ i : grid0.Coords, EltTy.bits .f32 = 32 ∨ (Rect.block (s := S96) S96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96.size a ≤ S96.size a
  hwx1_5 : ∀ i : grid1.Coords, EltTy.bits .f32 = 32 ∨ (Rect.block (s := S96) S96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x48.size a ≤ S96x48.size a
  hwx2_3 : ∀ i : grid2.Coords, EltTy.bits .f32 = 32 ∨ (Rect.block (s := S96x48) S96x48.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x48.size a ≤ S96x48.size a
  hwx2_4 : ∀ i : grid2.Coords, EltTy.bits .f32 = 32 ∨ (Rect.block (s := S96x48) S96x48.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S48.size a ≤ S48.size a
  hwx2_5 : ∀ i : grid2.Coords, EltTy.bits .f32 = 32 ∨ (Rect.block (s := S48) S48.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x48.size a ≤ S50000x48.size a
  hwx2_6 : ∀ i : grid2.Coords, EltTy.bits .f32 = 32 ∨ (Rect.block (s := S50000x48) S5000x48.size (cc2_transform_6 i) (hinb2_6 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x48_S5000x48_1_0_0_1_n_n : DotDims S5000x96 S96x48 S5000x48 where
  lhsContracting := [1]
  rhsContracting := [0]
  lhsNonContracting := [0]
  rhsNonContracting := [1]
  lhsBatch := []
  rhsBatch := []
  wf := dot_S5000x96_S96x48_S5000x48_1_0_0_1_n_n_wf

abbrev win0_0 : Pipeline.Window sig grid0 :=
  Pipeline.Window.ofSpec (Memref.whole main_v17) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S96x48.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S96x48.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S48.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S5000x48.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x48 : Shape := ⟨2, ![96, 48]⟩
abbrev S48 : Shape := ⟨1, ![48]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S50000x48 : Shape := ⟨2, ![50000, 48]⟩
abbrev S1x48 : Shape := ⟨2, ![1, 48]⟩

abbrev nBuf : Space → Nat
  | .hbm => 114
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96x96, .f32⟩
  | .hbm, ⟨7, _⟩ => ⟨S96, .f32⟩
  | .hbm, ⟨8, _⟩ => ⟨S96x48, .f32⟩
  | .hbm, ⟨9, _⟩ => ⟨S96x48, .f32⟩
  | .hbm, ⟨10, _⟩ => ⟨S48, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S_, .f32⟩
  | .hbm, ⟨25, _⟩ => ⟨S50000x96, .f32⟩
  | .hbm, ⟨26, _⟩ => ⟨S800000x1, .i32⟩
  | .hbm, ⟨27, _⟩ => ⟨S50000x96, .f32⟩
  | .hbm, ⟨28, _⟩ => ⟨S_, .f32⟩
  | .hbm, ⟨29, _⟩ => ⟨S800000x1, .f32⟩
  | .hbm, ⟨30, _⟩ => ⟨S_, .f32⟩
  | .hbm, ⟨31, _⟩ => ⟨S50000x1, .f32⟩
  | .hbm, ⟨32, _⟩ => ⟨S800000x1, .i32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x96, .f32⟩
  | .hbm, ⟨38, _⟩ => ⟨S50000x96, .f32⟩
  | .hbm, ⟨39, _⟩ => ⟨S50000x96, .f32⟩
  | .hbm, ⟨40, _⟩ => ⟨S50000x96, .f32⟩
  | .hbm, ⟨41, _⟩ => ⟨S50000x96, .f32⟩
  | .hbm, ⟨42, _⟩ => ⟨S1x96, .f32⟩
  | .hbm, ⟨43, _⟩ => ⟨S50000x96, .f32⟩
  | .hbm, ⟨44, _⟩ => ⟨S50000x96, .f32⟩
  | .hbm, ⟨45, _⟩ => ⟨S_, .f32⟩
  | .hbm, ⟨46, _⟩ => ⟨S50000x96, .f32⟩
  | .hbm, ⟨47, _⟩ => ⟨S50000x96, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x96, .f32⟩
  | .hbm, ⟨57, _⟩ => ⟨S_, .f32⟩
  | .hbm, ⟨58, _⟩ => ⟨S50000x96, .f32⟩
  | .hbm, ⟨59, _⟩ => ⟨S800000x1, .i32⟩
  | .hbm, ⟨60, _⟩ => ⟨S50000x96, .f32⟩
  | .hbm, ⟨61, _⟩ => ⟨S_, .f32⟩
  | .hbm, ⟨62, _⟩ => ⟨S800000x1, .f32⟩
  | .hbm, ⟨63, _⟩ => ⟨S_, .f32⟩
  | .hbm, ⟨64, _⟩ => ⟨S50000x1, .f32⟩
  | .hbm, ⟨65, _⟩ => ⟨S800000x1, .i32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x96, .f32⟩
  | .hbm, ⟨71, _⟩ => ⟨S50000x96, .f32⟩
  | .hbm, ⟨72, _⟩ => ⟨S50000x96, .f32⟩
  | .hbm, ⟨73, _⟩ => ⟨S50000x96, .f32⟩
  | .hbm, ⟨74, _⟩ => ⟨S50000x96, .f32⟩
  | .hbm, ⟨75, _⟩ => ⟨S1x96, .f32⟩
  | .hbm, ⟨76, _⟩ => ⟨S50000x96, .f32⟩
  | .hbm, ⟨77, _⟩ => ⟨S50000x96, .f32⟩
  | .hbm, ⟨78, _⟩ => ⟨S_, .f32⟩
  | .hbm, ⟨79, _⟩ => ⟨S50000x96, .f32⟩
  | .hbm, ⟨80, _⟩ => ⟨S50000x96, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x96, .f32⟩
  | .hbm, ⟨90, _⟩ => ⟨S_, .f32⟩
  | .hbm, ⟨91, _⟩ => ⟨S50000x96, .f32⟩
  | .hbm, ⟨92, _⟩ => ⟨S800000x1, .i32⟩
  | .hbm, ⟨93, _⟩ => ⟨S50000x96, .f32⟩
  | .hbm, ⟨94, _⟩ => ⟨S_, .f32⟩
  | .hbm, ⟨95, _⟩ => ⟨S800000x1, .f32⟩
  | .hbm, ⟨96, _⟩ => ⟨S_, .f32⟩
  | .hbm, ⟨97, _⟩ => ⟨S50000x1, .f32⟩
  | .hbm, ⟨98, _⟩ => ⟨S800000x1, .i32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x96, .f32⟩
  | .hbm, ⟨104, _⟩ => ⟨S50000x96, .f32⟩
  | .hbm, ⟨105, _⟩ => ⟨S50000x48, .f32⟩
  | .hbm, ⟨106, _⟩ => ⟨S50000x48, .f32⟩
  | .hbm, ⟨107, _⟩ => ⟨S50000x48, .f32⟩
  | .hbm, ⟨108, _⟩ => ⟨S1x48, .f32⟩
  | .hbm, ⟨109, _⟩ => ⟨S50000x48, .f32⟩
  | .hbm, ⟨110, _⟩ => ⟨S50000x48, .f32⟩
  | .hbm, ⟨111, _⟩ => ⟨S_, .f32⟩
  | .hbm, ⟨112, _⟩ => ⟨S50000x48, .f32⟩
  | .hbm, ⟨113, _⟩ => ⟨S50000x48, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call2_cst : Ref sig .tc := ⟨.hbm, 111, rfl⟩
abbrev main_call2_v0 : Ref sig .tc := ⟨.hbm, 112, rfl⟩
abbrev main_v78 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  bcast_S_S50000x48 : S_.BroadcastsInDim S50000x48 (![] : Fin 0 → Fin S50000x48.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000x1_S800000x1_S800000x1_1_0_0_1_wf : ScatterDims.WF S50000x1 S800000x1 S800000x1 [1] [0] [0] 1
  dot_S50000x96_S96x96_S50000x96_1_0_0_1_n_n_wf : DotDims.WF S50000x96 S96x96 S50000x96 [1] [0] [0] [1] [] []
  dot_S50000x96_S96x48_S50000x48_1_0_0_1_n_n_wf : DotDims.WF S50000x96 S96x48 S50000x48 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x48_S50000x48_1_0_0_1_n_n : DotDims S50000x96 S96x48 S50000x48 where
  lhsContracting := [1]
  rhsContracting := [0]
  lhsNonContracting := [0]
  rhsNonContracting := [1]
  lhsBatch := []
  rhsBatch := []
  wf := dot_S50000x96_S96x48_S50000x48_1_0_0_1_n_n_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.SageLayer.lean ====
/-
  One layer of a mean-aggregating graph network, read at an index, on the extended reals.

  For every node p let s[p,·] be the summed features of its in-neighbours, d[p] their number, and h[p,·] the node's
  own features. With two weight matrices and a bias the layer's entry (p, q) is

      max ( Σ_k (s[p,k] / max(d[p], 1)) · Wl[k,q]  +  Σ_k h[p,k] · Wr[k,q]  +  b[q] ,  0 ).

  It depends on row p of s and of h and on d[p] only. This file states that row function once (`row`), the whole
  array as the row function applied row by row (`layer`), and that two spellings compute it at an index: the vector
  unit's, on a block of M rows (the count column joined with a splat one and broadcast along the feature axis, the
  quotient, two matrix products into zero accumulators, the bias a vector laid out as one row and broadcast down the
  rows, the rectifier a maximum with a splat zero), and the host's, on all rows (`dot_general`, the count column and
  the bias broadcast by `broadcast_in_dim`, the zero a broadcast constant). A change of float format is the identity on
  the extended reals, so the unit's narrowing of its operands before the products does not show; a matrix product
  into a zero accumulator and `dot_general` are the same plain sum over the contracted axis. The two float words (one
  and zero) are kept as words: both spellings use the same ones. `step` is the layer fed by a neighbour sum of its
  own input. Generic in the extents.
-/
import Idealize.ShloMosaic.PureOps.Ideal.Laws
import Idealize.ShloMosaic.Lib.ValueIdx
import Idealize.ShloMosaic.Lib.ValueLayout
import Idealize.ShloMosaic.Lib.Pipeline.Value
import proofs.«125820_j12077448036415_1_alg».proof.Proof.LibPlainDot
import proofs.«125820_j12077448036415_1_alg».proof.Proof.LibRowBias
import proofs.«125820_j12077448036415_1_alg».proof.Proof.LibColumn

noncomputable section

open scoped BigOperators

namespace Cert.Sage

open Idealize.ShloMosaic Idealize.ShloMosaic.ValueIdx

variable {M K N : Nat}

/-- The layer on one node: entry q from the node's summed neighbour row `s`, its neighbour count `d`, its own row `h`. -/
def row (s : Fin K → EReal) (d : EReal) (h : Fin K → EReal) (wl wr : Fin K → Fin N → EReal) (b : Fin N → EReal)
    (q : Fin N) : EReal :=
  max ((∑ k, Ideal.div (s k) (max d (Ideal.ofBits .f32 0x3F800000#32)) * wl k q) + (∑ k, h k * wr k q) + b q)
    (Ideal.ofBits .f32 0x00000000#32)

/-- The layer on all nodes: row p of the result is `row` of row p of the sums, count p and row p of the features. -/
def layer (s : FVec Ideal ⟨2, ![M, K]⟩ .f32) (d : FVec Ideal ⟨2, ![M, 1]⟩ .f32) (h : FVec Ideal ⟨2, ![M, K]⟩ .f32)
    (wl wr : FVec Ideal ⟨2, ![K, N]⟩ .f32) (b : FVec Ideal ⟨1, ![N]⟩ .f32) : FVec Ideal ⟨2, ![M, N]⟩ .f32 :=
  fun i => row (fun k => s (ix2 (i 0) k)) (d (ix2 (i 0) (0 : Fin 1))) (fun k => h (ix2 (i 0) k))
    (fun k j => wl (ix2 k j)) (fun k j => wr (ix2 k j)) (fun j => b (ix1 j)) (i 1)

theorem layer_apply (s : FVec Ideal ⟨2, ![M, K]⟩ .f32) (d : FVec Ideal ⟨2, ![M, 1]⟩ .f32) (h : FVec Ideal ⟨2, ![M, K]⟩ .f32)
    (wl wr : FVec Ideal ⟨2, ![K, N]⟩ .f32) (b : FVec Ideal ⟨1, ![N]⟩ .f32) (p : Fin M) (q : Fin N) :
    layer s d h wl wr b (ix2 p q) = row (fun k => s (ix2 p k)) (d (ix2 p (0 : Fin 1))) (fun k => h (ix2 p k))
      (fun k j => wl (ix2 k j)) (fun k j => wr (ix2 k j)) (fun j => b (ix1 j)) q := rfl

/-- The vector unit's spelling on a block of M rows, at (p, q). -/
theorem unit_apply (hM : M ≠ 1) (s : FVec Ideal ⟨2, ![M, K]⟩ .f32) (d : FVec Ideal ⟨2, ![M, 1]⟩ .f32)
    (h : FVec Ideal ⟨2, ![M, K]⟩ .f32) (wl wr : FVec Ideal ⟨2, ![K, N]⟩ .f32) (b : FVec Ideal ⟨1, ![N]⟩ .f32)
    (hd : (⟨2, ![M, 1]⟩ : Shape).Broadcasts ⟨2, ![M, K]⟩) (hb : (⟨1, ![N]⟩ : Shape).ShapeCasts ⟨2, ![1, N]⟩)
    (hr : (⟨2, ![1, N]⟩ : Shape).Broadcasts ⟨2, ![M, N]⟩) (hw : FTy.bf16.bits < FTy.f32.bits) (p : Fin M) (q : Fin N) :
    maximumf
        (addf
          (addf
            (matmul (DotDims.plain M K N) none
              (truncf .bf16 (divf s (broadcastTo ⟨2, ![M, K]⟩
                (maximumf d (broadcast ⟨2, ![M, 1]⟩ (FloatOps.ofBits .f32 0x3F800000#32))) hd)) hw)
              (truncf .bf16 wl hw) (constant (F := Ideal) ⟨2, ![M, N]⟩ .f32 0x00000000#32))
            (matmul (DotDims.plain M K N) none (truncf .bf16 h hw) (truncf .bf16 wr hw)
              (constant (F := Ideal) ⟨2, ![M, N]⟩ .f32 0x00000000#32)))
          (broadcastTo ⟨2, ![M, N]⟩ (shapeCast ⟨2, ![1, N]⟩ b hb) hr))
        (broadcast ⟨2, ![M, N]⟩ (FloatOps.ofBits .f32 0x00000000#32)) (ix2 p q)
      = row (fun k => s (ix2 p k)) (d (ix2 p (0 : Fin 1))) (fun k => h (ix2 p k))
          (fun k j => wl (ix2 k j)) (fun k j => wr (ix2 k j)) (fun j => b (ix1 j)) q := by
  show max
      (FloatOps.matmul (DotDims.plain M K N) none
          (truncf .bf16 (divf s (broadcastTo ⟨2, ![M, K]⟩
            (maximumf d (broadcast ⟨2, ![M, 1]⟩ (FloatOps.ofBits .f32 0x3F800000#32))) hd)) hw)
          (truncf .bf16 wl hw) (constant (F := Ideal) ⟨2, ![M, N]⟩ .f32 0x00000000#32) (ix2 p q)
        + FloatOps.matmul (DotDims.plain M K N) none (truncf .bf16 h hw) (truncf .bf16 wr hw)
          (constant (F := Ideal) ⟨2, ![M, N]⟩ .f32 0x00000000#32) (ix2 p q)
        + broadcastTo ⟨2, ![M, N]⟩ (shapeCast ⟨2, ![1, N]⟩ b hb) hr (ix2 p q))
      (Ideal.ofBits .f32 0x00000000#32) = _
  rw [Cert.PlainDot.matmul_zero_apply, Cert.PlainDot.matmul_zero_apply, Cert.RowBias.rows_apply, Cert.RowBias.ofVec_apply]
  unfold row
  refine congrArg (fun z => max (z + (∑ k, h (ix2 p k) * wr (ix2 k q)) + b (ix1 q)) (Ideal.ofBits .f32 0x00000000#32)) ?_
  refine Finset.sum_congr rfl fun k _ => ?_
  show Ideal.div (s (ix2 p k)) (broadcastTo ⟨2, ![M, K]⟩
      (maximumf d (broadcast ⟨2, ![M, 1]⟩ (FloatOps.ofBits .f32 0x3F800000#32))) hd (ix2 p k)) * wl (ix2 k q) = _
  rw [Idealize.ShloMosaic.Column.broadcastTo_a1_ab_apply hM]
  rfl

/-- The host's spelling on all M rows, at (p, q). -/
theorem host_apply (hM : M ≠ 1) (s : FVec Ideal ⟨2, ![M, K]⟩ .f32) (d : FVec Ideal ⟨2, ![M, 1]⟩ .f32)
    (h : FVec Ideal ⟨2, ![M, K]⟩ .f32) (wl wr : FVec Ideal ⟨2, ![K, N]⟩ .f32) (b : FVec Ideal ⟨1, ![N]⟩ .f32)
    (h1 : (⟨0, ![]⟩ : Shape).BroadcastsInDim ⟨2, ![M, 1]⟩ ![])
    (hd : (⟨2, ![M, 1]⟩ : Shape).BroadcastsInDim ⟨2, ![M, K]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf
        (addf
          (addf
            (Host.dotGeneral (DotDims.plain M K N) none
              (Host.divf s (broadcastInDim ⟨2, ![M, K]⟩ ![0, 1] hd
                (maximumf d (broadcastInDim ⟨2, ![M, 1]⟩ ![] h1 (constant (F := Ideal) ⟨0, ![]⟩ .f32 0x3F800000#32)))))
              wl)
            (Host.dotGeneral (DotDims.plain M K N) none h wr))
          (broadcastInDim ⟨2, ![M, N]⟩ ![0, 1] hb2 (broadcastInDim ⟨2, ![1, N]⟩ ![1] hb1 b)))
        (broadcastInDim ⟨2, ![M, N]⟩ ![] h0 (constant (F := Ideal) ⟨0, ![]⟩ .f32 0x00000000#32)) (ix2 p q)
      = row (fun k => s (ix2 p k)) (d (ix2 p (0 : Fin 1))) (fun k => h (ix2 p k))
          (fun k j => wl (ix2 k j)) (fun k j => wr (ix2 k j)) (fun j => b (ix1 j)) q := by
  show max
      (FloatOps.dotGeneral (DotDims.plain M K N) none .single
          (Host.divf s (broadcastInDim ⟨2, ![M, K]⟩ ![0, 1] hd
            (maximumf d (broadcastInDim ⟨2, ![M, 1]⟩ ![] h1 (constant (F := Ideal) ⟨0, ![]⟩ .f32 0x3F800000#32))))) wl (ix2 p q)
        + FloatOps.dotGeneral (DotDims.plain M K N) none .single h wr (ix2 p q)
        + broadcastInDim ⟨2, ![M, N]⟩ ![0, 1] hb2 (broadcastInDim ⟨2, ![1, N]⟩ ![1] hb1 b) (ix2 p q))
      (broadcastInDim ⟨2, ![M, N]⟩ ![] h0 (constant (F := Ideal) ⟨0, ![]⟩ .f32 0x00000000#32) (ix2 p q)) = _
  rw [Cert.PlainDot.dotGeneral_apply, Cert.PlainDot.dotGeneral_apply, Cert.RowBias.hostRows_apply, Cert.RowBias.splat_apply]
  unfold row
  refine congrArg (fun z => max (z + (∑ k, h (ix2 p k) * wr (ix2 k q)) + b (ix1 q)) (Ideal.ofBits .f32 0x00000000#32)) ?_
  refine Finset.sum_congr rfl fun k _ => ?_
  show Ideal.div (s (ix2 p k)) (broadcastInDim ⟨2, ![M, K]⟩ ![0, 1] hd
      (maximumf d (broadcastInDim ⟨2, ![M, 1]⟩ ![] h1 (constant (F := Ideal) ⟨0, ![]⟩ .f32 0x3F800000#32))) (ix2 p k)) * wl (ix2 k q) = _
  rw [Idealize.ShloMosaic.Column.broadcastInDim_a1_ab_apply hM _ ![0, 1] rfl rfl]
  show Ideal.div (s (ix2 p k)) (max (d (ix2 p (0 : Fin 1)))
      (broadcastInDim ⟨2, ![M, 1]⟩ ![] h1 (constant (F := Ideal) ⟨0, ![]⟩ .f32 0x3F800000#32) (ix2 p (0 : Fin 1)))) * wl (ix2 k q) = _
  rw [Cert.RowBias.splat_apply]
  rfl

/-- One layer of the network on the whole graph: the node features `h` summed over each node's in-neighbours by `agg`,
    the in-neighbour counts `cnt`, then the layer. -/
def step (agg : FVec Ideal ⟨2, ![M, K]⟩ .f32 → FVec Ideal ⟨2, ![M, K]⟩ .f32) (cnt : FVec Ideal ⟨2, ![M, 1]⟩ .f32)
    (h : FVec Ideal ⟨2, ![M, K]⟩ .f32) (wl wr : FVec Ideal ⟨2, ![K, N]⟩ .f32) (b : FVec Ideal ⟨1, ![N]⟩ .f32) :
    FVec Ideal ⟨2, ![M, N]⟩ .f32 :=
  layer (agg h) cnt h wl wr b

end Cert.Sage

end
-- ==== Proof.Region0.lean ====
/-
  The first layer's region: what its output array holds when the region ends.

  The region visits ten grid points. Point t stages rows 5000·t … 5000·t + 4999 of the summed-neighbour array, of the
  count column and of the feature array, and the two weight matrices and the bias whole; it runs the layer on that block
  of rows and writes the 5000 result rows back to the same rows of the output array. Row p of the layer depends only
  on row p of its row operands, so what the point writes is rows 5000·t … of the layer applied to the whole arrays; the
  ten row blocks cover all 50000 rows, so the output array ends as the layer of the arrays the region found, whatever
  those are.
-/
import proofs.«125820_j12077448036415_1_alg».proof.Proof.Gen.KernelIdeal.Frame
import proofs.«125820_j12077448036415_1_alg».proof.Proof.SageLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the body stores, at (p, q): the layer's row function of row p of the blocks it loaded. -/
theorem pay_apply (v0 : Vec Ideal S5000x1 .f32) (v4 v9 : Vec Ideal S5000x96 .f32) (v11 v13 : Vec Ideal S96x96 .f32)
    (v18 : Vec Ideal S96 .f32) (p : Fin 5000) (q : Fin 96) :
    k0_pay1 (F := Ideal) v0 v4 v9 v11 v13 v18 (ix2 p q)
      = Cert.Sage.row (fun k => v4 (ix2 p k)) (v0 (ix2 p (0 : Fin 1))) (fun k => v9 (ix2 p k))
          (fun k j => v11 (ix2 k j)) (fun k j => v13 (ix2 k j)) (fun j => v18 (ix1 j)) q := by
  unfold k0_pay1
  simp only [shapeCast_self]
  exact Cert.Sage.unit_apply (M := 5000) (K := 96) (N := 96) (by decide) v4 v0 v9 v11 v13 v18 _ _ _ _ p q

/-- The grid has ten points. -/
theorem npoints : cfg0.N = 10 := N_0

/-- Row p of the block point t stages is row 5000·t + p of the array. -/
def rowAt (t : Fin cfg0.N) (p : Fin 5000) : Fin 50000 :=
  ⟨5000 * t.val + p.val, by have h : t.val < 10 := lt_of_lt_of_eq t.isLt npoints; have := p.isLt; omega⟩

/-- The printed index maps, decided over the grid: the row windows move with the point, the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## Each staged block as rows of its array -/

theorem sums_apply (c : Dev nD) (t : Fin cfg0.N) (p : Fin 5000) (k : Fin 96) :
    (iblk0 V c 0 t : Vec Ideal S5000x96 .f32) (ix2 p k) = (V c main_v17 : S50000x96.Idx → EReal) (ix2 (rowAt t p) k) := by
  obtain ⟨e0, e1, -⟩ := idx_facts t
  unfold iblk0
  rw [View.read_apply]
  show V c main_v17 _ = V c main_v17 _
  refine congrArg (V c main_v17) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 96 + 1 * k.val = k.val; rw [e1]; omega

theorem count_apply (c : Dev nD) (t : Fin cfg0.N) (p : Fin 5000) :
    (iblk0 V c 1 t : Vec Ideal S5000x1 .f32) (ix2 p (0 : Fin 1)) = (V c main_v7 : S50000x1.Idx → EReal) (ix2 (rowAt t p) (0 : Fin 1)) := by
  obtain ⟨-, -, e0, e1, -⟩ := idx_facts t
  unfold iblk0
  rw [View.read_apply]
  show V c main_v7 _ = V c main_v7 _
  refine congrArg (V c main_v7) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 1 + 1 * 0 = 0; rw [e1]

theorem feats_apply (c : Dev nD) (t : Fin cfg0.N) (p : Fin 5000) (k : Fin 96) :
    (iblk0 V c 2 t : Vec Ideal S5000x96 .f32) (ix2 p k) = (V c main_arg0 : S50000x96.Idx → EReal) (ix2 (rowAt t p) k) := by
  obtain ⟨-, -, -, -, e0, e1, -⟩ := idx_facts t
  unfold iblk0
  rw [View.read_apply]
  show V c main_arg0 _ = V c main_arg0 _
  refine congrArg (V c main_arg0) (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 96 + 1 * k.val = k.val; rw [e1]; omega

theorem wl_apply (c : Dev nD) (t : Fin cfg0.N) (k : Fin 96) (j : Fin 96) :
    (iblk0 V c 3 t : Vec Ideal S96x96 .f32) (ix2 k j) = (V c main_arg2 : S96x96.Idx → EReal) (ix2 k j) := by
  obtain ⟨-, -, -, -, -, -, e0, e1, -⟩ := idx_facts t
  unfold iblk0
  rw [View.read_apply]
  show V c main_arg2 _ = V c main_arg2 _
  refine congrArg (V c main_arg2) (funext fun a => Fin.ext ?_)
  match a with
  | ⟨0, _⟩ => show win0_3.index t (0 : Fin 2) * 96 + 1 * k.val = k.val; rw [e0]; omega
  | ⟨1, _⟩ => show win0_3.index t (1 : Fin 2) * 96 + 1 * j.val = j.val; rw [e1]; omega

theorem wr_apply (c : Dev nD) (t : Fin cfg0.N) (k : Fin 96) (j : Fin 96) :
    (iblk0 V c 4 t : Vec Ideal S96x96 .f32) (ix2 k j) = (V c main_arg3 : S96x96.Idx → EReal) (ix2 k j) := by
  obtain ⟨-, -, -, -, -, -, -, -, e0, e1, -⟩ := idx_facts t
  unfold iblk0
  rw [View.read_apply]
  show V c main_arg3 _ = V c main_arg3 _
  refine congrArg (V c main_arg3) (funext fun a => Fin.ext ?_)
  match a with
  | ⟨0, _⟩ => show win0_4.index t (0 : Fin 2) * 96 + 1 * k.val = k.val; rw [e0]; omega
  | ⟨1, _⟩ => show win0_4.index t (1 : Fin 2) * 96 + 1 * j.val = j.val; rw [e1]; omega

theorem bias_apply (c : Dev nD) (t : Fin cfg0.N) (j : Fin 96) :
    (iblk0 V c 5 t : Vec Ideal S96 .f32) (ix1 j) = (V c main_arg4 : S96.Idx → EReal) (ix1 j) := by
  obtain ⟨-, -, -, -, -, -, -, -, -, -, e0, -⟩ := idx_facts t
  unfold iblk0
  rw [View.read_apply]
  show V c main_arg4 _ = V c main_arg4 _
  refine congrArg (V c main_arg4) (funext fun a => Fin.ext ?_)
  match a with
  | ⟨0, _⟩ => show win0_5.index t (0 : Fin 1) * 96 + 1 * j.val = j.val; rw [e0]; omega

/-! ## The output array -/

/-- What the output array ends holding: the layer of the arrays the region found. -/
abbrev out (c : Dev nD) : Buf (Elt Ideal) ((c : Thread nD τ).loc main_v18) :=
  Cert.Sage.layer (M := 50000) (K := 96) (N := 96) (V c main_v17) (V c main_v7) (V c main_arg0) (V c main_arg2) (V c main_arg3) (V c main_arg4)

/-- What point t writes back is rows 5000·t … of `out`. -/
theorem flushed_eq (c : Dev nD) (t : Fin cfg0.N) (hf : (cfg0.win 6).flush t = true) :
    (dat0 V c).flushed 6 t = ((cfg0.win 6).blk t).view.read (Elt Ideal) (out V c) := by
  obtain ⟨-, -, -, -, -, -, -, -, -, -, -, e0, e1⟩ := idx_facts t
  show (cfg0.win 6).cut (grid0.coords t) ((dat0 V c).after 6 t) = _
  rw [after0_6]
  unfold out0_6
  rw [View.canon_unit_zero hz2]
  simp only [View.ld_unit_zero (S := S5000x96) hz2, View.ld_unit_zero (S := S5000x1) hz2,
    View.ld_unit_zero (S := S96x96) hz2, View.ld_unit_zero (S := S96) hz1]
  funext j
  obtain ⟨p, q, rfl⟩ : ∃ (p : Fin 5000) (q : Fin 96), j = ix2 p q := ⟨j 0, j 1, eq_ix2 j⟩
  rw [View.read_apply]
  have he : ((cfg0.win 6).blk t).view.emb (ix2 p q) = (ix2 (rowAt t p) q : S50000x96.Idx) :=
    funext fun a => Fin.ext (by
      match a with
      | ⟨0, _⟩ => show win0_6.index t (0 : Fin 2) * 5000 + 1 * p.val = 5000 * t.val + p.val; rw [e0]; omega
      | ⟨1, _⟩ => show win0_6.index t (1 : Fin 2) * 96 + 1 * q.val = q.val; rw [e1]; omega)
  rw [he]
  refine (pay_apply _ _ _ _ _ _ p q).trans ?_
  show _ = Cert.Sage.layer (M := 50000) (K := 96) (N := 96) (V c main_v17) (V c main_v7) (V c main_arg0) (V c main_arg2) (V c main_arg3) (V c main_arg4) (ix2 (rowAt t p) q)
  rw [Cert.Sage.layer_apply]
  simp only [sums_apply, count_apply, feats_apply, wl_apply, wr_apply, bias_apply]

/-- Every row of the output array lies in some point's block: row r in point r / 5000's. -/
theorem cover (c : Dev nD) (i : S50000x96.Idx) :
    ∃ t : Fin cfg0.N, (cfg0.win 6).flush t = true ∧ i ∈ ((cfg0.win 6).blk t).view.set := by
  have hi0 : (i 0).val < 50000 := (i 0).isLt
  have hi1 : (i 1).val < 96 := (i 1).isLt
  have ht : (i 0).val / 5000 < cfg0.N := by rw [npoints]; omega
  obtain ⟨-, -, -, -, -, -, -, -, -, -, -, e0, e1⟩ := idx_facts ⟨(i 0).val / 5000, ht⟩
  refine ⟨⟨(i 0).val / 5000, ht⟩, flush0_6 _, ?_⟩
  show i ∈ ((View.whole main_v18).slice (win0_6.rect ⟨(i 0).val / 5000, ht⟩)).set
  rw [View.set_slice_whole, Rect.mem_set_unit]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 96 ≤ (i 1).val
      ∧ (i 1).val < win0_6.index ⟨(i 0).val / 5000, ht⟩ (1 : Fin 2) * 96 + 96
    rw [e1]; omega

/-- The region's output array ends as the layer of the arrays the region found. -/
theorem final (c : Dev nD) : (dat0 V c).arrAt 6 cfg0.N = out V c :=
  (dat0 V c).arrAt_eq_of_cover 6 (out V c) (flushed_eq V c) (cover c)

end Cert.KernelIdeal.Region0

end
-- ==== Proof.Region1.lean ====
/-
  The second layer's region: what its output array holds when the region ends.

  The region visits ten grid points. Point t stages rows 5000·t … 5000·t + 4999 of the summed-neighbour array, of the
  count column and of the feature array, and the two weight matrices and the bias whole; it runs the layer on that block
  of rows and writes the 5000 result rows back to the same rows of the output array. Row p of the layer depends only
  on row p of its row operands, so what the point writes is rows 5000·t … of the layer applied to the whole arrays; the
  ten row blocks cover all 50000 rows, so the output array ends as the layer of the arrays the region found, whatever
  those are.
-/
import proofs.«125820_j12077448036415_1_alg».proof.Proof.Gen.KernelIdeal.Frame
import proofs.«125820_j12077448036415_1_alg».proof.Proof.SageLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the body stores, at (p, q): the layer's row function of row p of the blocks it loaded. -/
theorem pay_apply (v0 : Vec Ideal S5000x1 .f32) (v4 v9 : Vec Ideal S5000x96 .f32) (v11 v13 : Vec Ideal S96x96 .f32)
    (v18 : Vec Ideal S96 .f32) (p : Fin 5000) (q : Fin 96) :
    k1_pay1 (F := Ideal) v0 v4 v9 v11 v13 v18 (ix2 p q)
      = Cert.Sage.row (fun k => v4 (ix2 p k)) (v0 (ix2 p (0 : Fin 1))) (fun k => v9 (ix2 p k))
          (fun k j => v11 (ix2 k j)) (fun k j => v13 (ix2 k j)) (fun j => v18 (ix1 j)) q := by
  unfold k1_pay1
  simp only [shapeCast_self]
  exact Cert.Sage.unit_apply (M := 5000) (K := 96) (N := 96) (by decide) v4 v0 v9 v11 v13 v18 _ _ _ _ p q

/-- The grid has ten points. -/
theorem npoints : cfg1.N = 10 := N_1

/-- Row p of the block point t stages is row 5000·t + p of the array. -/
def rowAt (t : Fin cfg1.N) (p : Fin 5000) : Fin 50000 :=
  ⟨5000 * t.val + p.val, by have h : t.val < 10 := lt_of_lt_of_eq t.isLt npoints; have := p.isLt; omega⟩

/-- The printed index maps, decided over the grid: the row windows move with the point, the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-! ## Each staged block as rows of its array -/

theorem sums_apply (c : Dev nD) (t : Fin cfg1.N) (p : Fin 5000) (k : Fin 96) :
    (iblk1 V c 0 t : Vec Ideal S5000x96 .f32) (ix2 p k) = (V c main_v28 : S50000x96.Idx → EReal) (ix2 (rowAt t p) k) := by
  obtain ⟨e0, e1, -⟩ := idx_facts t
  unfold iblk1
  rw [View.read_apply]
  show V c main_v28 _ = V c main_v28 _
  refine congrArg (V c main_v28) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 96 + 1 * k.val = k.val; rw [e1]; omega

theorem count_apply (c : Dev nD) (t : Fin cfg1.N) (p : Fin 5000) :
    (iblk1 V c 1 t : Vec Ideal S5000x1 .f32) (ix2 p (0 : Fin 1)) = (V c main_v7 : S50000x1.Idx → EReal) (ix2 (rowAt t p) (0 : Fin 1)) := by
  obtain ⟨-, -, e0, e1, -⟩ := idx_facts t
  unfold iblk1
  rw [View.read_apply]
  show V c main_v7 _ = V c main_v7 _
  refine congrArg (V c main_v7) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 1 + 1 * 0 = 0; rw [e1]

theorem feats_apply (c : Dev nD) (t : Fin cfg1.N) (p : Fin 5000) (k : Fin 96) :
    (iblk1 V c 2 t : Vec Ideal S5000x96 .f32) (ix2 p k) = (V c main_v18 : S50000x96.Idx → EReal) (ix2 (rowAt t p) k) := by
  obtain ⟨-, -, -, -, e0, e1, -⟩ := idx_facts t
  unfold iblk1
  rw [View.read_apply]
  show V c main_v18 _ = V c main_v18 _
  refine congrArg (V c main_v18) (funext fun a => Fin.ext ?_)
  match a with
  | ⟨0, _⟩ => show win1_2.index t (0 : Fin 2) * 5000 + 1 * p.val = 5000 * t.val + p.val; rw [e0]; omega
  | ⟨1, _⟩ => show win1_2.index t (1 : Fin 2) * 96 + 1 * k.val = k.val; rw [e1]; omega

theorem wl_apply (c : Dev nD) (t : Fin cfg1.N) (k : Fin 96) (j : Fin 96) :
    (iblk1 V c 3 t : Vec Ideal S96x96 .f32) (ix2 k j) = (V c main_arg5 : S96x96.Idx → EReal) (ix2 k j) := by
  obtain ⟨-, -, -, -, -, -, e0, e1, -⟩ := idx_facts t
  unfold iblk1
  rw [View.read_apply]
  show V c main_arg5 _ = V c main_arg5 _
  refine congrArg (V c main_arg5) (funext fun a => Fin.ext ?_)
  match a with
  | ⟨0, _⟩ => show win1_3.index t (0 : Fin 2) * 96 + 1 * k.val = k.val; rw [e0]; omega
  | ⟨1, _⟩ => show win1_3.index t (1 : Fin 2) * 96 + 1 * j.val = j.val; rw [e1]; omega

theorem wr_apply (c : Dev nD) (t : Fin cfg1.N) (k : Fin 96) (j : Fin 96) :
    (iblk1 V c 4 t : Vec Ideal S96x96 .f32) (ix2 k j) = (V c main_arg6 : S96x96.Idx → EReal) (ix2 k j) := by
  obtain ⟨-, -, -, -, -, -, -, -, e0, e1, -⟩ := idx_facts t
  unfold iblk1
  rw [View.read_apply]
  show V c main_arg6 _ = V c main_arg6 _
  refine congrArg (V c main_arg6) (funext fun a => Fin.ext ?_)
  match a with
  | ⟨0, _⟩ => show win1_4.index t (0 : Fin 2) * 96 + 1 * k.val = k.val; rw [e0]; omega
  | ⟨1, _⟩ => show win1_4.index t (1 : Fin 2) * 96 + 1 * j.val = j.val; rw [e1]; omega

theorem bias_apply (c : Dev nD) (t : Fin cfg1.N) (j : Fin 96) :
    (iblk1 V c 5 t : Vec Ideal S96 .f32) (ix1 j) = (V c main_arg7 : S96.Idx → EReal) (ix1 j) := by
  obtain ⟨-, -, -, -, -, -, -, -, -, -, e0, -⟩ := idx_facts t
  unfold iblk1
  rw [View.read_apply]
  show V c main_arg7 _ = V c main_arg7 _
  refine congrArg (V c main_arg7) (funext fun a => Fin.ext ?_)
  match a with
  | ⟨0, _⟩ => show win1_5.index t (0 : Fin 1) * 96 + 1 * j.val = j.val; rw [e0]; omega

/-! ## The output array -/

/-- What the output array ends holding: the layer of the arrays the region found. -/
abbrev out (c : Dev nD) : Buf (Elt Ideal) ((c : Thread nD τ).loc main_v29) :=
  Cert.Sage.layer (M := 50000) (K := 96) (N := 96) (V c main_v28) (V c main_v7) (V c main_v18) (V c main_arg5) (V c main_arg6) (V c main_arg7)

/-- What point t writes back is rows 5000·t … of `out`. -/
theorem flushed_eq (c : Dev nD) (t : Fin cfg1.N) (hf : (cfg1.win 6).flush t = true) :
    (dat1 V c).flushed 6 t = ((cfg1.win 6).blk t).view.read (Elt Ideal) (out V c) := by
  obtain ⟨-, -, -, -, -, -, -, -, -, -, -, e0, e1⟩ := idx_facts t
  show (cfg1.win 6).cut (grid1.coords t) ((dat1 V c).after 6 t) = _
  rw [after1_6]
  unfold out1_6
  rw [View.canon_unit_zero hz2]
  simp only [View.ld_unit_zero (S := S5000x96) hz2, View.ld_unit_zero (S := S5000x1) hz2,
    View.ld_unit_zero (S := S96x96) hz2, View.ld_unit_zero (S := S96) hz1]
  funext j
  obtain ⟨p, q, rfl⟩ : ∃ (p : Fin 5000) (q : Fin 96), j = ix2 p q := ⟨j 0, j 1, eq_ix2 j⟩
  rw [View.read_apply]
  have he : ((cfg1.win 6).blk t).view.emb (ix2 p q) = (ix2 (rowAt t p) q : S50000x96.Idx) :=
    funext fun a => Fin.ext (by
      match a with
      | ⟨0, _⟩ => show win1_6.index t (0 : Fin 2) * 5000 + 1 * p.val = 5000 * t.val + p.val; rw [e0]; omega
      | ⟨1, _⟩ => show win1_6.index t (1 : Fin 2) * 96 + 1 * q.val = q.val; rw [e1]; omega)
  rw [he]
  refine (pay_apply _ _ _ _ _ _ p q).trans ?_
  show _ = Cert.Sage.layer (M := 50000) (K := 96) (N := 96) (V c main_v28) (V c main_v7) (V c main_v18) (V c main_arg5) (V c main_arg6) (V c main_arg7) (ix2 (rowAt t p) q)
  rw [Cert.Sage.layer_apply]
  simp only [sums_apply, count_apply, feats_apply, wl_apply, wr_apply, bias_apply]

/-- Every row of the output array lies in some point's block: row r in point r / 5000's. -/
theorem cover (c : Dev nD) (i : S50000x96.Idx) :
    ∃ t : Fin cfg1.N, (cfg1.win 6).flush t = true ∧ i ∈ ((cfg1.win 6).blk t).view.set := by
  have hi0 : (i 0).val < 50000 := (i 0).isLt
  have hi1 : (i 1).val < 96 := (i 1).isLt
  have ht : (i 0).val / 5000 < cfg1.N := by rw [npoints]; omega
  obtain ⟨-, -, -, -, -, -, -, -, -, -, -, e0, e1⟩ := idx_facts ⟨(i 0).val / 5000, ht⟩
  refine ⟨⟨(i 0).val / 5000, ht⟩, flush1_6 _, ?_⟩
  show i ∈ ((View.whole main_v29).slice (win1_6.rect ⟨(i 0).val / 5000, ht⟩)).set
  rw [View.set_slice_whole, Rect.mem_set_unit]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 96 ≤ (i 1).val
      ∧ (i 1).val < win1_6.index ⟨(i 0).val / 5000, ht⟩ (1 : Fin 2) * 96 + 96
    rw [e1]; omega

/-- The region's output array ends as the layer of the arrays the region found. -/
theorem final (c : Dev nD) : (dat1 V c).arrAt 6 cfg1.N = out V c :=
  (dat1 V c).arrAt_eq_of_cover 6 (out V c) (flushed_eq V c) (cover c)

end Cert.KernelIdeal.Region1

end
-- ==== Proof.Region2.lean ====
/-
  The third layer's region: what its output array holds when the region ends.

  The region visits ten grid points. Point t stages rows 5000·t … 5000·t + 4999 of the summed-neighbour array, of the
  count column and of the feature array, and the two weight matrices and the bias whole; it runs the layer on that block
  of rows and writes the 5000 result rows back to the same rows of the output array. Row p of the layer depends only
  on row p of its row operands, so what the point writes is rows 5000·t … of the layer applied to the whole arrays; the
  ten row blocks cover all 50000 rows, so the output array ends as the layer of the arrays the region found, whatever
  those are.
-/
import proofs.«125820_j12077448036415_1_alg».proof.Proof.Gen.KernelIdeal.Frame
import proofs.«125820_j12077448036415_1_alg».proof.Proof.SageLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the body stores, at (p, q): the layer's row function of row p of the blocks it loaded. -/
theorem pay_apply (v0 : Vec Ideal S5000x1 .f32) (v4 v9 : Vec Ideal S5000x96 .f32) (v11 v13 : Vec Ideal S96x48 .f32)
    (v18 : Vec Ideal S48 .f32) (p : Fin 5000) (q : Fin 48) :
    k2_pay1 (F := Ideal) v0 v4 v9 v11 v13 v18 (ix2 p q)
      = Cert.Sage.row (fun k => v4 (ix2 p k)) (v0 (ix2 p (0 : Fin 1))) (fun k => v9 (ix2 p k))
          (fun k j => v11 (ix2 k j)) (fun k j => v13 (ix2 k j)) (fun j => v18 (ix1 j)) q := by
  unfold k2_pay1
  simp only [shapeCast_self]
  exact Cert.Sage.unit_apply (M := 5000) (K := 96) (N := 48) (by decide) v4 v0 v9 v11 v13 v18 _ _ _ _ p q

/-- The grid has ten points. -/
theorem npoints : cfg2.N = 10 := N_2

/-- Row p of the block point t stages is row 5000·t + p of the array. -/
def rowAt (t : Fin cfg2.N) (p : Fin 5000) : Fin 50000 :=
  ⟨5000 * t.val + p.val, by have h : t.val < 10 := lt_of_lt_of_eq t.isLt npoints; have := p.isLt; omega⟩

/-- The printed index maps, decided over the grid: the row windows move with the point, the weights and the bias stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-! ## Each staged block as rows of its array -/

theorem sums_apply (c : Dev nD) (t : Fin cfg2.N) (p : Fin 5000) (k : Fin 96) :
    (iblk2 V c 0 t : Vec Ideal S5000x96 .f32) (ix2 p k) = (V c main_v39 : S50000x96.Idx → EReal) (ix2 (rowAt t p) k) := by
  obtain ⟨e0, e1, -⟩ := idx_facts t
  unfold iblk2
  rw [View.read_apply]
  show V c main_v39 _ = V c main_v39 _
  refine congrArg (V c main_v39) (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 96 + 1 * k.val = k.val; rw [e1]; omega

theorem count_apply (c : Dev nD) (t : Fin cfg2.N) (p : Fin 5000) :
    (iblk2 V c 1 t : Vec Ideal S5000x1 .f32) (ix2 p (0 : Fin 1)) = (V c main_v7 : S50000x1.Idx → EReal) (ix2 (rowAt t p) (0 : Fin 1)) := by
  obtain ⟨-, -, e0, e1, -⟩ := idx_facts t
  unfold iblk2
  rw [View.read_apply]
  show V c main_v7 _ = V c main_v7 _
  refine congrArg (V c main_v7) (funext fun a => Fin.ext ?_)
  match a with
  | ⟨0, _⟩ => show win2_1.index t (0 : Fin 2) * 5000 + 1 * p.val = 5000 * t.val + p.val; rw [e0]; omega
  | ⟨1, _⟩ => show win2_1.index t (1 : Fin 2) * 1 + 1 * 0 = 0; rw [e1]

theorem feats_apply (c : Dev nD) (t : Fin cfg2.N) (p : Fin 5000) (k : Fin 96) :
    (iblk2 V c 2 t : Vec Ideal S5000x96 .f32) (ix2 p k) = (V c main_v29 : S50000x96.Idx → EReal) (ix2 (rowAt t p) k) := by
  obtain ⟨-, -, -, -, e0, e1, -⟩ := idx_facts t
  unfold iblk2
  rw [View.read_apply]
  show V c main_v29 _ = V c main_v29 _
  refine congrArg (V c main_v29) (funext fun a => Fin.ext ?_)
  match a with
  | ⟨0, _⟩ => show win2_2.index t (0 : Fin 2) * 5000 + 1 * p.val = 5000 * t.val + p.val; rw [e0]; omega
  | ⟨1, _⟩ => show win2_2.index t (1 : Fin 2) * 96 + 1 * k.val = k.val; rw [e1]; omega

theorem wl_apply (c : Dev nD) (t : Fin cfg2.N) (k : Fin 96) (j : Fin 48) :
    (iblk2 V c 3 t : Vec Ideal S96x48 .f32) (ix2 k j) = (V c main_arg8 : S96x48.Idx → EReal) (ix2 k j) := by
  obtain ⟨-, -, -, -, -, -, e0, e1, -⟩ := idx_facts t
  unfold iblk2
  rw [View.read_apply]
  show V c main_arg8 _ = V c main_arg8 _
  refine congrArg (V c main_arg8) (funext fun a => Fin.ext ?_)
  match a with
  | ⟨0, _⟩ => show win2_3.index t (0 : Fin 2) * 96 + 1 * k.val = k.val; rw [e0]; omega
  | ⟨1, _⟩ => show win2_3.index t (1 : Fin 2) * 48 + 1 * j.val = j.val; rw [e1]; omega

theorem wr_apply (c : Dev nD) (t : Fin cfg2.N) (k : Fin 96) (j : Fin 48) :
    (iblk2 V c 4 t : Vec Ideal S96x48 .f32) (ix2 k j) = (V c main_arg9 : S96x48.Idx → EReal) (ix2 k j) := by
  obtain ⟨-, -, -, -, -, -, -, -, e0, e1, -⟩ := idx_facts t
  unfold iblk2
  rw [View.read_apply]
  show V c main_arg9 _ = V c main_arg9 _
  refine congrArg (V c main_arg9) (funext fun a => Fin.ext ?_)
  match a with
  | ⟨0, _⟩ => show win2_4.index t (0 : Fin 2) * 96 + 1 * k.val = k.val; rw [e0]; omega
  | ⟨1, _⟩ => show win2_4.index t (1 : Fin 2) * 48 + 1 * j.val = j.val; rw [e1]; omega

theorem bias_apply (c : Dev nD) (t : Fin cfg2.N) (j : Fin 48) :
    (iblk2 V c 5 t : Vec Ideal S48 .f32) (ix1 j) = (V c main_arg10 : S48.Idx → EReal) (ix1 j) := by
  obtain ⟨-, -, -, -, -, -, -, -, -, -, e0, -⟩ := idx_facts t
  unfold iblk2
  rw [View.read_apply]
  show V c main_arg10 _ = V c main_arg10 _
  refine congrArg (V c main_arg10) (funext fun a => Fin.ext ?_)
  match a with
  | ⟨0, _⟩ => show win2_5.index t (0 : Fin 1) * 48 + 1 * j.val = j.val; rw [e0]; omega

/-! ## The output array -/

/-- What the output array ends holding: the layer of the arrays the region found. -/
abbrev out (c : Dev nD) : Buf (Elt Ideal) ((c : Thread nD τ).loc main_v40) :=
  Cert.Sage.layer (M := 50000) (K := 96) (N := 48) (V c main_v39) (V c main_v7) (V c main_v29) (V c main_arg8) (V c main_arg9) (V c main_arg10)

/-- What point t writes back is rows 5000·t … of `out`. -/
theorem flushed_eq (c : Dev nD) (t : Fin cfg2.N) (hf : (cfg2.win 6).flush t = true) :
    (dat2 V c).flushed 6 t = ((cfg2.win 6).blk t).view.read (Elt Ideal) (out V c) := by
  obtain ⟨-, -, -, -, -, -, -, -, -, -, -, e0, e1⟩ := idx_facts t
  show (cfg2.win 6).cut (grid2.coords t) ((dat2 V c).after 6 t) = _
  rw [after2_6]
  unfold out2_6
  rw [View.canon_unit_zero hz2]
  simp only [View.ld_unit_zero (S := S5000x96) hz2, View.ld_unit_zero (S := S5000x1) hz2,
    View.ld_unit_zero (S := S96x48) hz2, View.ld_unit_zero (S := S48) hz1]
  funext j
  obtain ⟨p, q, rfl⟩ : ∃ (p : Fin 5000) (q : Fin 48), j = ix2 p q := ⟨j 0, j 1, eq_ix2 j⟩
  rw [View.read_apply]
  have he : ((cfg2.win 6).blk t).view.emb (ix2 p q) = (ix2 (rowAt t p) q : S50000x48.Idx) :=
    funext fun a => Fin.ext (by
      match a with
      | ⟨0, _⟩ => show win2_6.index t (0 : Fin 2) * 5000 + 1 * p.val = 5000 * t.val + p.val; rw [e0]; omega
      | ⟨1, _⟩ => show win2_6.index t (1 : Fin 2) * 48 + 1 * q.val = q.val; rw [e1]; omega)
  rw [he]
  refine (pay_apply _ _ _ _ _ _ p q).trans ?_
  show _ = Cert.Sage.layer (M := 50000) (K := 96) (N := 48) (V c main_v39) (V c main_v7) (V c main_v29) (V c main_arg8) (V c main_arg9) (V c main_arg10) (ix2 (rowAt t p) q)
  rw [Cert.Sage.layer_apply]
  simp only [sums_apply, count_apply, feats_apply, wl_apply, wr_apply, bias_apply]

/-- Every row of the output array lies in some point's block: row r in point r / 5000's. -/
theorem cover (c : Dev nD) (i : S50000x48.Idx) :
    ∃ t : Fin cfg2.N, (cfg2.win 6).flush t = true ∧ i ∈ ((cfg2.win 6).blk t).view.set := by
  have hi0 : (i 0).val < 50000 := (i 0).isLt
  have hi1 : (i 1).val < 48 := (i 1).isLt
  have ht : (i 0).val / 5000 < cfg2.N := by rw [npoints]; omega
  obtain ⟨-, -, -, -, -, -, -, -, -, -, -, e0, e1⟩ := idx_facts ⟨(i 0).val / 5000, ht⟩
  refine ⟨⟨(i 0).val / 5000, ht⟩, flush2_6 _, ?_⟩
  show i ∈ ((View.whole main_v40).slice (win2_6.rect ⟨(i 0).val / 5000, ht⟩)).set
  rw [View.set_slice_whole, Rect.mem_set_unit]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, ht⟩ (1 : Fin 2) * 48 ≤ (i 1).val
      ∧ (i 1).val < win2_6.index ⟨(i 0).val / 5000, ht⟩ (1 : Fin 2) * 48 + 48
    rw [e1]; omega

/-- The region's output array ends as the layer of the arrays the region found. -/
theorem final (c : Dev nD) : (dat2 V c).arrAt 6 cfg2.N = out V c :=
  (dat2 V c).arrAt_eq_of_cover 6 (out V c) (flushed_eq V c) (cover c)

end Cert.KernelIdeal.Region2

end
-- ==== Proof.KernelValue.lean ====
/-
  The kernel program's result as three applications of one layer.

  Between its three regions the program runs, on the host, the same chain each time: the edge list's source row selects
  rows of the current node features (a negative source number first moved up by the number of nodes), the destination
  row says into which node's row each selected row is added; once, before the first region, the same destinations add
  a one per edge into the column of in-neighbour counts, which all three regions then read. Each region turns the
  neighbour sums, the counts and the current features into the next features (the region modules). This file names the
  host pieces, reads each host stretch's results off the contents it starts from, follows every buffer a later item
  reads from boundary to boundary (a host stretch leaves what it does not write; a region leaves what is not one of its
  arrays, and its input arrays as it found them), and so reads the result buffer at the last boundary as the layer
  `Cert.Sage.step` applied three times.
-/
import proofs.«125820_j12077448036415_1_alg».proof.Proof.Gen.KernelIdeal.Frame
import proofs.«125820_j12077448036415_1_alg».proof.Proof.SageLayer
import proofs.«125820_j12077448036415_1_alg».proof.Proof.Region0
import proofs.«125820_j12077448036415_1_alg».proof.Proof.Region1
import proofs.«125820_j12077448036415_1_alg».proof.Proof.Region2
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Net

open Cert.KernelIdeal Cert.KernelIdeal.Gen

/-- The edge list: row 0 the sources, row 1 the destinations. -/
abbrev Edges : Type := (⟨S2x800000, .i32⟩ : BufTy).Contents (Elt Ideal)
/-- One node number per edge. -/
abbrev Ends : Type := (⟨S800000, .i32⟩ : BufTy).Contents (Elt Ideal)

/-- The edges' source nodes. -/
def src (ei : Edges) : Ends :=
  shapeCast _ (extractStridedSlice S1x800000 ![0, 0] ei slices_S2x800000_S1x800000_0_0) shapeCasts_S1x800000_S800000

/-- The edges' destination nodes. -/
def dst (ei : Edges) : Ends :=
  shapeCast _ (extractStridedSlice S1x800000 ![1, 0] ei slices_S2x800000_S1x800000_1_0) shapeCasts_S1x800000_S800000

/-- The number of edges into each node, as a column: a one per edge added at its destination `d`. -/
def cntOf (d : Ends) : FVec Ideal S50000x1 .f32 :=
  Host.scatterAdd scatter_S50000x1_S800000x1_S800000x1_1_0_0_1
    (broadcastInDim S50000x1 ![] bcast_S_S50000x1 (constant S_ .f32 0x00000000#32))
    (broadcastInDim S800000x1 ![0] bcast_S800000_S800000x1_0 d)
    (broadcastInDim S800000x1 ![] bcast_S_S800000x1 (constant S_ .f32 0x3F800000#32))

/-- The features summed over each node's in-neighbours: each edge's source row (sources `s`) added at its destination (`d`). -/
def aggOf (s d : Ends) (h : FVec Ideal S50000x96 .f32) : FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 d)
    (Host.gather gather_S50000x96_S800000x1_S800000x96_1_0_n_n_0_1_196 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32)))
          s)))

/-- The count column of an edge list. -/
def cnt (ei : Edges) : FVec Ideal S50000x1 .f32 := cntOf (dst ei)
/-- The neighbour sum over an edge list. -/
def agg (ei : Edges) (h : FVec Ideal S50000x96 .f32) : FVec Ideal S50000x96 .f32 := aggOf (src ei) (dst ei) h

/-! ## The host stretches, from any contents -/

section Stretches

variable (W : Valuation τ sig (Elt Ideal))

set_option maxHeartbeats 8000000 in
/-- Before the first region: the two rows of the edge list, the counts, the first neighbour sum; the arguments stay. -/
theorem stretch0 :
    StableHlo.after hostOps0 W (Proc.devRef .tc main_v1) = src (W (Proc.devRef .tc main_arg1))
    ∧ StableHlo.after hostOps0 W (Proc.devRef .tc main_v3) = dst (W (Proc.devRef .tc main_arg1))
    ∧ StableHlo.after hostOps0 W (Proc.devRef .tc main_v7) = cntOf (dst (W (Proc.devRef .tc main_arg1)))
    ∧ StableHlo.after hostOps0 W (Proc.devRef .tc main_v17) = aggOf (src (W (Proc.devRef .tc main_arg1))) (dst (W (Proc.devRef .tc main_arg1))) (W (Proc.devRef .tc main_arg0))
    ∧ StableHlo.after hostOps0 W (Proc.devRef .tc main_arg0) = W (Proc.devRef .tc main_arg0)
    ∧ StableHlo.after hostOps0 W (Proc.devRef .tc main_arg2) = W (Proc.devRef .tc main_arg2)
    ∧ StableHlo.after hostOps0 W (Proc.devRef .tc main_arg3) = W (Proc.devRef .tc main_arg3)
    ∧ StableHlo.after hostOps0 W (Proc.devRef .tc main_arg4) = W (Proc.devRef .tc main_arg4)
    ∧ StableHlo.after hostOps0 W (Proc.devRef .tc main_arg5) = W (Proc.devRef .tc main_arg5)
    ∧ StableHlo.after hostOps0 W (Proc.devRef .tc main_arg6) = W (Proc.devRef .tc main_arg6)
    ∧ StableHlo.after hostOps0 W (Proc.devRef .tc main_arg7) = W (Proc.devRef .tc main_arg7)
    ∧ StableHlo.after hostOps0 W (Proc.devRef .tc main_arg8) = W (Proc.devRef .tc main_arg8)
    ∧ StableHlo.after hostOps0 W (Proc.devRef .tc main_arg9) = W (Proc.devRef .tc main_arg9)
    ∧ StableHlo.after hostOps0 W (Proc.devRef .tc main_arg10) = W (Proc.devRef .tc main_arg10) := by
  refine ⟨?_, ?_, ?_, ?_, ?_, ?_, ?_, ?_, ?_, ?_, ?_, ?_, ?_, ?_⟩ <;> (after_results_simp <;> rfl)

set_option maxHeartbeats 8000000 in
/-- Between the first and the second region: the neighbour sum of the first region's output; what a later item reads stays. -/
theorem stretch1 :
    StableHlo.after hostOps1 W (Proc.devRef .tc main_v28) = aggOf (W (Proc.devRef .tc main_v1)) (W (Proc.devRef .tc main_v3)) (W (Proc.devRef .tc main_v18))
    ∧ StableHlo.after hostOps1 W (Proc.devRef .tc main_v1) = W (Proc.devRef .tc main_v1)
    ∧ StableHlo.after hostOps1 W (Proc.devRef .tc main_v3) = W (Proc.devRef .tc main_v3)
    ∧ StableHlo.after hostOps1 W (Proc.devRef .tc main_v7) = W (Proc.devRef .tc main_v7)
    ∧ StableHlo.after hostOps1 W (Proc.devRef .tc main_v18) = W (Proc.devRef .tc main_v18)
    ∧ StableHlo.after hostOps1 W (Proc.devRef .tc main_arg5) = W (Proc.devRef .tc main_arg5)
    ∧ StableHlo.after hostOps1 W (Proc.devRef .tc main_arg6) = W (Proc.devRef .tc main_arg6)
    ∧ StableHlo.after hostOps1 W (Proc.devRef .tc main_arg7) = W (Proc.devRef .tc main_arg7)
    ∧ StableHlo.after hostOps1 W (Proc.devRef .tc main_arg8) = W (Proc.devRef .tc main_arg8)
    ∧ StableHlo.after hostOps1 W (Proc.devRef .tc main_arg9) = W (Proc.devRef .tc main_arg9)
    ∧ StableHlo.after hostOps1 W (Proc.devRef .tc main_arg10) = W (Proc.devRef .tc main_arg10) := by
  refine ⟨?_, ?_, ?_, ?_, ?_, ?_, ?_, ?_, ?_, ?_, ?_⟩ <;> (after_results_simp <;> rfl)

set_option maxHeartbeats 8000000 in
/-- Between the second and the third region: the neighbour sum of the second region's output; what the third reads stays. -/
theorem stretch2 :
    StableHlo.after hostOps2 W (Proc.devRef .tc main_v39) = aggOf (W (Proc.devRef .tc main_v1)) (W (Proc.devRef .tc main_v3)) (W (Proc.devRef .tc main_v29))
    ∧ StableHlo.after hostOps2 W (Proc.devRef .tc main_v7) = W (Proc.devRef .tc main_v7)
    ∧ StableHlo.after hostOps2 W (Proc.devRef .tc main_v29) = W (Proc.devRef .tc main_v29)
    ∧ StableHlo.after hostOps2 W (Proc.devRef .tc main_arg8) = W (Proc.devRef .tc main_arg8)
    ∧ StableHlo.after hostOps2 W (Proc.devRef .tc main_arg9) = W (Proc.devRef .tc main_arg9)
    ∧ StableHlo.after hostOps2 W (Proc.devRef .tc main_arg10) = W (Proc.devRef .tc main_arg10) := by
  refine ⟨?_, ?_, ?_, ?_, ?_, ?_⟩ <;> (after_results_simp <;> rfl)

end Stretches

/-! ## The contents at each boundary -/

variable (m : (ℓ : Loc nD τ sig) → Buf (Elt Ideal) ℓ) (ρ : Dev nD → PrngReg)

/-- The features after the first layer. -/
def h1 (c : Dev nD) : FVec Ideal S50000x96 .f32 :=
  Cert.Sage.step (M := 50000) (K := 96) (N := 96) (agg (m ((c.tc : Thread nD τ).loc main_arg1))) (cnt (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))
/-- The features after the second layer. -/
def h2 (c : Dev nD) : FVec Ideal S50000x96 .f32 :=
  Cert.Sage.step (M := 50000) (K := 96) (N := 96) (agg (m ((c.tc : Thread nD τ).loc main_arg1))) (cnt (m ((c.tc : Thread nD τ).loc main_arg1))) (h1 m c) (m ((c.tc : Thread nD τ).loc main_arg5)) (m ((c.tc : Thread nD τ).loc main_arg6)) (m ((c.tc : Thread nD τ).loc main_arg7))
/-- The features after the third layer: the result. -/
def h3 (c : Dev nD) : FVec Ideal S50000x48 .f32 :=
  Cert.Sage.step (M := 50000) (K := 96) (N := 48) (agg (m ((c.tc : Thread nD τ).loc main_arg1))) (cnt (m ((c.tc : Thread nD τ).loc main_arg1))) (h2 m c) (m ((c.tc : Thread nD τ).loc main_arg8)) (m ((c.tc : Thread nD τ).loc main_arg9)) (m ((c.tc : Thread nD τ).loc main_arg10))

/-- At the first region's entry. -/
theorem at1 (c : Dev nD) :
    W1 m ρ c (Proc.devRef .tc main_v1) = src (m ((c.tc : Thread nD τ).loc main_arg1))
    ∧ W1 m ρ c (Proc.devRef .tc main_v3) = dst (m ((c.tc : Thread nD τ).loc main_arg1))
    ∧ W1 m ρ c (Proc.devRef .tc main_v7) = cnt (m ((c.tc : Thread nD τ).loc main_arg1))
    ∧ W1 m ρ c (Proc.devRef .tc main_v17) = agg (m ((c.tc : Thread nD τ).loc main_arg1)) (m ((c.tc : Thread nD τ).loc main_arg0))
    ∧ W1 m ρ c (Proc.devRef .tc main_arg0) = (m ((c.tc : Thread nD τ).loc main_arg0))
    ∧ W1 m ρ c (Proc.devRef .tc main_arg2) = (m ((c.tc : Thread nD τ).loc main_arg2))
    ∧ W1 m ρ c (Proc.devRef .tc main_arg3) = (m ((c.tc : Thread nD τ).loc main_arg3))
    ∧ W1 m ρ c (Proc.devRef .tc main_arg4) = (m ((c.tc : Thread nD τ).loc main_arg4))
    ∧ W1 m ρ c (Proc.devRef .tc main_arg5) = (m ((c.tc : Thread nD τ).loc main_arg5))
    ∧ W1 m ρ c (Proc.devRef .tc main_arg6) = (m ((c.tc : Thread nD τ).loc main_arg6))
    ∧ W1 m ρ c (Proc.devRef .tc main_arg7) = (m ((c.tc : Thread nD τ).loc main_arg7))
    ∧ W1 m ρ c (Proc.devRef .tc main_arg8) = (m ((c.tc : Thread nD τ).loc main_arg8))
    ∧ W1 m ρ c (Proc.devRef .tc main_arg9) = (m ((c.tc : Thread nD τ).loc main_arg9))
    ∧ W1 m ρ c (Proc.devRef .tc main_arg10) = (m ((c.tc : Thread nD τ).loc main_arg10)) :=
  stretch0 (W0 m ρ c)

/-- At the first region's exit: its output is the first layer; the rest a later item reads is as the region found it. -/
theorem at2 (c : Dev nD) :
    W2 m ρ c (Proc.devRef .tc main_v1) = src (m ((c.tc : Thread nD τ).loc main_arg1))
    ∧ W2 m ρ c (Proc.devRef .tc main_v3) = dst (m ((c.tc : Thread nD τ).loc main_arg1))
    ∧ W2 m ρ c (Proc.devRef .tc main_v7) = cnt (m ((c.tc : Thread nD τ).loc main_arg1))
    ∧ W2 m ρ c (Proc.devRef .tc main_v18) = h1 m c
    ∧ W2 m ρ c (Proc.devRef .tc main_arg5) = (m ((c.tc : Thread nD τ).loc main_arg5))
    ∧ W2 m ρ c (Proc.devRef .tc main_arg6) = (m ((c.tc : Thread nD τ).loc main_arg6))
    ∧ W2 m ρ c (Proc.devRef .tc main_arg7) = (m ((c.tc : Thread nD τ).loc main_arg7))
    ∧ W2 m ρ c (Proc.devRef .tc main_arg8) = (m ((c.tc : Thread nD τ).loc main_arg8))
    ∧ W2 m ρ c (Proc.devRef .tc main_arg9) = (m ((c.tc : Thread nD τ).loc main_arg9))
    ∧ W2 m ρ c (Proc.devRef .tc main_arg10) = (m ((c.tc : Thread nD τ).loc main_arg10)) := by
  obtain ⟨e1, e3, e7, e17, a0, a2, a3, a4, a5, a6, a7, a8, a9, a10⟩ := at1 m ρ c
  refine ⟨(W2_of_ne m ρ c main_v1 (by decide)).trans e1, (W2_of_ne m ρ c main_v3 (by decide)).trans e3,
    ((W2_arr m ρ c 1).trans (((dat0 (V1 m ρ) c).arrAt_in 1 rfl _).trans (A_eq0 (V1 m ρ) c 1))).trans e7, ?_,
    (W2_of_ne m ρ c main_arg5 (by decide)).trans a5, (W2_of_ne m ρ c main_arg6 (by decide)).trans a6,
    (W2_of_ne m ρ c main_arg7 (by decide)).trans a7, (W2_of_ne m ρ c main_arg8 (by decide)).trans a8,
    (W2_of_ne m ρ c main_arg9 (by decide)).trans a9, (W2_of_ne m ρ c main_arg10 (by decide)).trans a10⟩
  refine ((W2_arr m ρ c 6).trans (Region0.final (V1 m ρ) c)).trans ?_
  show Cert.Sage.layer (M := 50000) (K := 96) (N := 96) (W1 m ρ c (Proc.devRef .tc main_v17)) (W1 m ρ c (Proc.devRef .tc main_v7)) (W1 m ρ c (Proc.devRef .tc main_arg0))
    (W1 m ρ c (Proc.devRef .tc main_arg2)) (W1 m ρ c (Proc.devRef .tc main_arg3)) (W1 m ρ c (Proc.devRef .tc main_arg4)) = _
  rw [e17, e7, a0, a2, a3, a4]
  rfl

/-- At the second region's entry. -/
theorem at3 (c : Dev nD) :
    W3 m ρ c (Proc.devRef .tc main_v1) = src (m ((c.tc : Thread nD τ).loc main_arg1))
    ∧ W3 m ρ c (Proc.devRef .tc main_v3) = dst (m ((c.tc : Thread nD τ).loc main_arg1))
    ∧ W3 m ρ c (Proc.devRef .tc main_v7) = cnt (m ((c.tc : Thread nD τ).loc main_arg1))
    ∧ W3 m ρ c (Proc.devRef .tc main_v18) = h1 m c
    ∧ W3 m ρ c (Proc.devRef .tc main_v28) = agg (m ((c.tc : Thread nD τ).loc main_arg1)) (h1 m c)
    ∧ W3 m ρ c (Proc.devRef .tc main_arg5) = (m ((c.tc : Thread nD τ).loc main_arg5))
    ∧ W3 m ρ c (Proc.devRef .tc main_arg6) = (m ((c.tc : Thread nD τ).loc main_arg6))
    ∧ W3 m ρ c (Proc.devRef .tc main_arg7) = (m ((c.tc : Thread nD τ).loc main_arg7))
    ∧ W3 m ρ c (Proc.devRef .tc main_arg8) = (m ((c.tc : Thread nD τ).loc main_arg8))
    ∧ W3 m ρ c (Proc.devRef .tc main_arg9) = (m ((c.tc : Thread nD τ).loc main_arg9))
    ∧ W3 m ρ c (Proc.devRef .tc main_arg10) = (m ((c.tc : Thread nD τ).loc main_arg10)) := by
  obtain ⟨e1, e3, e7, e18, a5, a6, a7, a8, a9, a10⟩ := at2 m ρ c
  obtain ⟨s28, k1, k3, k7, k18, k5, k6, k7', k8, k9, k10⟩ := stretch1 (W2 m ρ c)
  refine ⟨k1.trans e1, k3.trans e3, k7.trans e7, k18.trans e18, ?_, k5.trans a5, k6.trans a6, k7'.trans a7, k8.trans a8,
    k9.trans a9, k10.trans a10⟩
  refine s28.trans ?_
  rw [e1, e3, e18]
  rfl

/-- At the second region's exit. -/
theorem at4 (c : Dev nD) :
    W4 m ρ c (Proc.devRef .tc main_v1) = src (m ((c.tc : Thread nD τ).loc main_arg1))
    ∧ W4 m ρ c (Proc.devRef .tc main_v3) = dst (m ((c.tc : Thread nD τ).loc main_arg1))
    ∧ W4 m ρ c (Proc.devRef .tc main_v7) = cnt (m ((c.tc : Thread nD τ).loc main_arg1))
    ∧ W4 m ρ c (Proc.devRef .tc main_v29) = h2 m c
    ∧ W4 m ρ c (Proc.devRef .tc main_arg8) = (m ((c.tc : Thread nD τ).loc main_arg8))
    ∧ W4 m ρ c (Proc.devRef .tc main_arg9) = (m ((c.tc : Thread nD τ).loc main_arg9))
    ∧ W4 m ρ c (Proc.devRef .tc main_arg10) = (m ((c.tc : Thread nD τ).loc main_arg10)) := by
  obtain ⟨e1, e3, e7, e18, e28, a5, a6, a7, a8, a9, a10⟩ := at3 m ρ c
  refine ⟨(W4_of_ne m ρ c main_v1 (by decide)).trans e1, (W4_of_ne m ρ c main_v3 (by decide)).trans e3,
    ((W4_arr m ρ c 1).trans (((dat1 (V3 m ρ) c).arrAt_in 1 rfl _).trans (A_eq1 (V3 m ρ) c 1))).trans e7, ?_,
    (W4_of_ne m ρ c main_arg8 (by decide)).trans a8, (W4_of_ne m ρ c main_arg9 (by decide)).trans a9,
    (W4_of_ne m ρ c main_arg10 (by decide)).trans a10⟩
  refine ((W4_arr m ρ c 6).trans (Region1.final (V3 m ρ) c)).trans ?_
  show Cert.Sage.layer (M := 50000) (K := 96) (N := 96) (W3 m ρ c (Proc.devRef .tc main_v28)) (W3 m ρ c (Proc.devRef .tc main_v7)) (W3 m ρ c (Proc.devRef .tc main_v18))
    (W3 m ρ c (Proc.devRef .tc main_arg5)) (W3 m ρ c (Proc.devRef .tc main_arg6)) (W3 m ρ c (Proc.devRef .tc main_arg7)) = _
  rw [e28, e7, e18, a5, a6, a7]
  rfl

/-- At the third region's entry. -/
theorem at5 (c : Dev nD) :
    W5 m ρ c (Proc.devRef .tc main_v7) = cnt (m ((c.tc : Thread nD τ).loc main_arg1))
    ∧ W5 m ρ c (Proc.devRef .tc main_v29) = h2 m c
    ∧ W5 m ρ c (Proc.devRef .tc main_v39) = agg (m ((c.tc : Thread nD τ).loc main_arg1)) (h2 m c)
    ∧ W5 m ρ c (Proc.devRef .tc main_arg8) = (m ((c.tc : Thread nD τ).loc main_arg8))
    ∧ W5 m ρ c (Proc.devRef .tc main_arg9) = (m ((c.tc : Thread nD τ).loc main_arg9))
    ∧ W5 m ρ c (Proc.devRef .tc main_arg10) = (m ((c.tc : Thread nD τ).loc main_arg10)) := by
  obtain ⟨e1, e3, e7, e29, a8, a9, a10⟩ := at4 m ρ c
  obtain ⟨s39, k7, k29, k8, k9, k10⟩ := stretch2 (W4 m ρ c)
  refine ⟨k7.trans e7, k29.trans e29, ?_, k8.trans a8, k9.trans a9, k10.trans a10⟩
  refine s39.trans ?_
  rw [e1, e3, e29]
  rfl

/-- At the last boundary the result buffer holds the third layer. -/
theorem result_eq (c : Dev nD) : W6 m ρ c (Proc.devRef .tc main_v40) = h3 m c := by
  obtain ⟨e7, e29, e39, a8, a9, a10⟩ := at5 m ρ c
  refine ((W6_arr m ρ c 6).trans (Region2.final (V5 m ρ) c)).trans ?_
  show Cert.Sage.layer (M := 50000) (K := 96) (N := 48) (W5 m ρ c (Proc.devRef .tc main_v39)) (W5 m ρ c (Proc.devRef .tc main_v7)) (W5 m ρ c (Proc.devRef .tc main_v29))
    (W5 m ρ c (Proc.devRef .tc main_arg8)) (W5 m ρ c (Proc.devRef .tc main_arg9)) (W5 m ρ c (Proc.devRef .tc main_arg10)) = _
  rw [e39, e7, e29, a8, a9, a10]
  rfl

end Cert.KernelIdeal.Net

end
-- ==== Proof.RefValue.lean ====
/-
  The reference's result as three applications of one layer.

  The reference computes, three times over, the same chain on the whole graph: the edge list's source row selects
  rows of the node features (a negative source number is first moved up by the number of nodes, which is how the
  indexing reads a negative index), the edge list's destination row says into which node's row each selected row is
  added, the same destinations add a one per edge into a column of in-neighbour counts, and the dense combine follows. Its
  run's composed term is exactly that chain written out; here the pieces get names (the two rows of the edge list, the
  count column `cnt`, the neighbour sum `agg`, the host's layer), the term is folded into them by unfolding, and each
  host layer is read index by index as the layer `Cert.Sage.step`.
-/
import proofs.«125820_j12077448036415_1_alg».proof.Proof.Gen.ReferenceIdeal.Run
import proofs.«125820_j12077448036415_1_alg».proof.Proof.SageLayer

noncomputable section

open Idealize.ShloMosaic Idealize.ShloMosaic.TcCoe Idealize.SL.Sem Idealize.ShloMosaic.ValueIdx

namespace Cert.ReferenceIdeal.Net

open Cert.ReferenceIdeal Cert.ReferenceIdeal.Gen

/-- The edge list: row 0 the sources, row 1 the destinations. -/
abbrev Edges : Type := (⟨S2x800000, .i32⟩ : BufTy).Contents (Elt Ideal)

/-- The edges' source nodes. -/
def src (ei : Edges) : (⟨S800000, .i32⟩ : BufTy).Contents (Elt Ideal) :=
  shapeCast _ (extractStridedSlice S1x800000 ![0, 0] ei slices_S2x800000_S1x800000_0_0) shapeCasts_S1x800000_S800000

/-- The edges' destination nodes. -/
def dst (ei : Edges) : (⟨S800000, .i32⟩ : BufTy).Contents (Elt Ideal) :=
  shapeCast _ (extractStridedSlice S1x800000 ![1, 0] ei slices_S2x800000_S1x800000_1_0) shapeCasts_S1x800000_S800000

/-- The number of edges into each node, as a column: a one per edge added at its destination. -/
def cnt (ei : Edges) : FVec Ideal S50000x1 .f32 :=
  Host.scatterAdd scatter_S50000x1_S800000x1_S800000x1_1_0_0_1
    (broadcastInDim S50000x1 ![] bcast_S_S50000x1 (constant S_ .f32 0x00000000#32))
    (broadcastInDim S800000x1 ![0] bcast_S800000_S800000x1_0 (dst ei))
    (broadcastInDim S800000x1 ![] bcast_S_S800000x1 (constant S_ .f32 0x3F800000#32))

/-- The features summed over each node's in-neighbours: each edge's source row added at its destination. -/
def agg (ei : Edges) (h : FVec Ideal S50000x96 .f32) : FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 (dst ei))
    (Host.gather gather_S50000x96_S800000x1_S800000x96_1_0_n_n_0_1_196 h
      (broadcastInDim S800000x1 ![0] bcast_S800000_S800000x1_0
        (select (cmpi .slt (src ei) (broadcastInDim S800000 ![] bcast_S_S800000 (constantI S_ 32 0#32)))
          (addi (src ei) (broadcastInDim S800000 ![] bcast_S_S800000 (constantI S_ 32 50000#32)))
          (src ei))))

/-- The host's layer of output width 96, as the reference spells it. -/
def hostLayer96 (ei : Edges) (h : FVec Ideal S50000x96 .f32) (wl wr : FVec Ideal S96x96 .f32) (b : FVec Ideal S96 .f32) :
    FVec Ideal S50000x96 .f32 :=
  maximumf
    (addf
      (addf
        (Host.dotGeneral dot_S50000x96_S96x96_S50000x96_1_0_0_1_n_n none
          (Host.divf (agg ei h) (broadcastInDim S50000x96 ![0, 1] bcast_S50000x1_S50000x96_0_1
            (maximumf (cnt ei) (broadcastInDim S50000x1 ![] bcast_S_S50000x1 (constant S_ .f32 0x3F800000#32)))))
          wl)
        (Host.dotGeneral dot_S50000x96_S96x96_S50000x96_1_0_0_1_n_n none h wr))
      (broadcastInDim S50000x96 ![0, 1] bcast_S1x96_S50000x96_0_1 (broadcastInDim S1x96 ![1] bcast_S96_S1x96_1 b)))
    (broadcastInDim S50000x96 ![] bcast_S_S50000x96 (constant S_ .f32 0x00000000#32))

/-- The host's layer of output width 48. -/
def hostLayer48 (ei : Edges) (h : FVec Ideal S50000x96 .f32) (wl wr : FVec Ideal S96x48 .f32) (b : FVec Ideal S48 .f32) :
    FVec Ideal S50000x48 .f32 :=
  maximumf
    (addf
      (addf
        (Host.dotGeneral dot_S50000x96_S96x48_S50000x48_1_0_0_1_n_n none
          (Host.divf (agg ei h) (broadcastInDim S50000x96 ![0, 1] bcast_S50000x1_S50000x96_0_1
            (maximumf (cnt ei) (broadcastInDim S50000x1 ![] bcast_S_S50000x1 (constant S_ .f32 0x3F800000#32)))))
          wl)
        (Host.dotGeneral dot_S50000x96_S96x48_S50000x48_1_0_0_1_n_n none h wr))
      (broadcastInDim S50000x48 ![0, 1] bcast_S1x48_S50000x48_0_1 (broadcastInDim S1x48 ![1] bcast_S48_S1x48_1 b)))
    (broadcastInDim S50000x48 ![] bcast_S_S50000x48 (constant S_ .f32 0x00000000#32))

/-- The run's composed term is the three host layers, one on top of the other. -/
theorem res_eq (m : (ℓ : Loc nD τ sig) → Buf (Elt Ideal) ℓ) (c : Dev nD) :
    Cert.ReferenceIdeal.Value.res_main_v78 (F := Ideal) m c
      = hostLayer48 (m ((c.tc : Thread nD τ).loc main_arg1))
          (hostLayer96 (m ((c.tc : Thread nD τ).loc main_arg1))
            (hostLayer96 (m ((c.tc : Thread nD τ).loc main_arg1)) (m ((c.tc : Thread nD τ).loc main_arg0))
              (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7)))
          (m ((c.tc : Thread nD τ).loc main_arg8)) (m ((c.tc : Thread nD τ).loc main_arg9)) (m ((c.tc : Thread nD τ).loc main_arg10)) := by
  unfold Cert.ReferenceIdeal.Value.res_main_v78 hostLayer48 hostLayer96 agg cnt src dst
  rfl

/-- The host's layer of width 96 is the layer, fed by the neighbour sum of its own input. -/
theorem hostLayer96_eq (ei : Edges) (h : FVec Ideal S50000x96 .f32) (wl wr : FVec Ideal S96x96 .f32) (b : FVec Ideal S96 .f32) :
    hostLayer96 ei h wl wr b = Cert.Sage.step (M := 50000) (K := 96) (N := 96) (agg ei) (cnt ei) h wl wr b := by
  funext i
  obtain ⟨p, q, rfl⟩ : ∃ (p : Fin 50000) (q : Fin 96), i = ix2 p q := ⟨i 0, i 1, eq_ix2 i⟩
  unfold hostLayer96
  exact Cert.Sage.host_apply (M := 50000) (K := 96) (N := 96) (by decide) (agg ei h) (cnt ei) h wl wr b _ _ _ _ _ p q

/-- The same at width 48. -/
theorem hostLayer48_eq (ei : Edges) (h : FVec Ideal S50000x96 .f32) (wl wr : FVec Ideal S96x48 .f32) (b : FVec Ideal S48 .f32) :
    hostLayer48 ei h wl wr b = Cert.Sage.step (M := 50000) (K := 96) (N := 48) (agg ei) (cnt ei) h wl wr b := by
  funext i
  obtain ⟨p, q, rfl⟩ : ∃ (p : Fin 50000) (q : Fin 48), i = ix2 p q := ⟨i 0, i 1, eq_ix2 i⟩
  unfold hostLayer48
  exact Cert.Sage.host_apply (M := 50000) (K := 96) (N := 48) (by decide) (agg ei h) (cnt ei) h wl wr b _ _ _ _ _ p q

/-- The reference's result: three layers, each fed by the neighbour sum of the layer before. -/
theorem result_eq (m : (ℓ : Loc nD τ sig) → Buf (Elt Ideal) ℓ) (c : Dev nD) :
    Cert.ReferenceIdeal.Value.res_main_v78 (F := Ideal) m c
      = Cert.Sage.step (M := 50000) (K := 96) (N := 48) (agg (m ((c.tc : Thread nD τ).loc main_arg1))) (cnt (m ((c.tc : Thread nD τ).loc main_arg1)))
          (Cert.Sage.step (M := 50000) (K := 96) (N := 96) (agg (m ((c.tc : Thread nD τ).loc main_arg1))) (cnt (m ((c.tc : Thread nD τ).loc main_arg1)))
            (Cert.Sage.step (M := 50000) (K := 96) (N := 96) (agg (m ((c.tc : Thread nD τ).loc main_arg1))) (cnt (m ((c.tc : Thread nD τ).loc main_arg1)))
              (m ((c.tc : Thread nD τ).loc main_arg0))
              (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7)))
          (m ((c.tc : Thread nD τ).loc main_arg8)) (m ((c.tc : Thread nD τ).loc main_arg9)) (m ((c.tc : Thread nD τ).loc main_arg10)) := by
  rw [res_eq, hostLayer96_eq, hostLayer96_eq, hostLayer48_eq]

end Cert.ReferenceIdeal.Net

end
-- ==== Proof.Bridge.lean ====
/-
  The two programs compute one function of the arguments.

  Both programs sum neighbour rows and count in-neighbours by the same host operations on the same operands, so the
  two spellings of the neighbour sum and of the count column are one function (the shapes and the dimension records
  the two programs print are the same data under different names). The kernel program's result is the layer applied
  three times over its neighbour sum and counts, the reference's the same over its own, and the arguments agree: the
  results are equal, index by index, on the extended reals. No law of arithmetic is used beyond the ones inside a layer,
  so the inputs' finiteness is never opened.
-/
import proofs.«125820_j12077448036415_1_alg».proof.Defs
import proofs.«125820_j12077448036415_1_alg».proof.Proof.Gen.Pre_finite_inputs
import proofs.«125820_j12077448036415_1_alg».proof.Proof.KernelLaunch
import proofs.«125820_j12077448036415_1_alg».proof.Proof.KernelValue
import proofs.«125820_j12077448036415_1_alg».proof.Proof.RefValue

noncomputable section

open Idealize.ShloMosaic Idealize.ShloMosaic.TcCoe Idealize.SL.Sem

namespace Cert.Proof.Bridge

/-- The two programs' neighbour sums are one function. -/
theorem agg_eq (ei : Cert.KernelIdeal.Net.Edges) : Cert.ReferenceIdeal.Net.agg ei = Cert.KernelIdeal.Net.agg ei := by
  funext h
  unfold Cert.KernelIdeal.Net.agg Cert.KernelIdeal.Net.aggOf Cert.KernelIdeal.Net.src Cert.KernelIdeal.Net.dst
    Cert.ReferenceIdeal.Net.agg Cert.ReferenceIdeal.Net.src Cert.ReferenceIdeal.Net.dst
  rfl

/-- The two programs' count columns are one array. -/
theorem cnt_eq (ei : Cert.KernelIdeal.Net.Edges) : Cert.ReferenceIdeal.Net.cnt ei = Cert.KernelIdeal.Net.cnt ei := by
  unfold Cert.KernelIdeal.Net.cnt Cert.KernelIdeal.Net.cntOf Cert.KernelIdeal.Net.dst
    Cert.ReferenceIdeal.Net.cnt Cert.ReferenceIdeal.Net.dst
  rfl

/-- From memories that agree on the arguments both programs run to the end with the third layer's features as their
    result and the arguments as launched. -/
theorem algebraic : Cert.algebraic_KernelIdeal_ReferenceIdeal := by
  intro m ρ m' ρ' _ hagree
  refine ⟨fun c => Cert.KernelIdeal.Net.h3 m c, ?_, ?_⟩
  · exact (θ_run Cert.KernelIdeal.defs _ _).mono
      (fun r h c => ⟨(h c).1.trans (Cert.KernelIdeal.Net.result_eq m ρ c), (h c).2⟩)
      (Cert.KernelIdeal.Launch.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Net.result_eq]
    obtain ⟨a0, a1, a2, a3, a4, a5, a6, a7, a8, a9, a10⟩ := hagree c
    rw [a0, a1, a2, a3, a4, a5, a6, a7, a8, a9, a10, agg_eq, cnt_eq]
    rfl

end Cert.Proof.Bridge

end
-- ==== Proof.lean ====
/-
  A three-layer mean-aggregating graph network: a kernel program against its plain reference, over the extended reals.

  Each layer takes the node features h, sums them over every node's in-neighbours (the edge list's source row selects
  rows, its destination row says where each is added), divides by the in-neighbour count (at least one), and combines:
  max(mean · Wl + h · Wr + b, 0). The reference does all of this with host operations on the whole [50000, ·] arrays.
  The kernel program leaves the irregular part (the row selection, the two sums over edges) to the same host
  operations and runs the dense combine in a region of ten grid points, 5000 rows each, with its matrix operands
  narrowed to bf16 before the products; on the extended reals a change of format is the identity and a product into a
  zero accumulator is the host's `dot_general`, so a region's output array is the reference's dense combine of the same
  arrays, and the three layers chain.

  The frames of the two kernel programs are the generated ones; the reference's frame is its generated run with the
  result dropped; the idealization rewrote nothing, so there is nothing to preserve; the value claim is `Bridge.algebraic`.
-/
import proofs.«125820_j12077448036415_1_alg».proof.Defs
import proofs.«125820_j12077448036415_1_alg».proof.Proof.Gen.Kernel
import proofs.«125820_j12077448036415_1_alg».proof.Proof.Gen.Kernel.Frame
import proofs.«125820_j12077448036415_1_alg».proof.Proof.Gen.KernelIdeal
import proofs.«125820_j12077448036415_1_alg».proof.Proof.Gen.KernelIdeal.Frame
import proofs.«125820_j12077448036415_1_alg».proof.Proof.Gen.ReferenceIdeal
import proofs.«125820_j12077448036415_1_alg».proof.Proof.Gen.ReferenceIdeal.Run
import proofs.«125820_j12077448036415_1_alg».proof.Proof.Gen.Pre_finite_inputs
import proofs.«125820_j12077448036415_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    Cert.Proof.Bridge.algebraic⟩

end Cert.Proof

end
